-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128 : Shape := ⟨2, ![32, 128]⟩
abbrev S10x128 : Shape := ⟨2, ![10, 128]⟩
abbrev S128x512 : Shape := ⟨2, ![128, 512]⟩
abbrev S_ : Shape := ⟨0, ![]⟩

class Facts : Prop where
  bcast_S_S32x128 : S_.BroadcastsInDim S32x128 (![] : Fin 0 → Fin S32x128.rank)
  reducesTo_S32x128_S_d0_1 : S32x128.ReducesTo [0, 1] S_
  h_S_ : 0 < S_.numel
  bcast_S_S10x128 : S_.BroadcastsInDim S10x128 (![] : Fin 0 → Fin S10x128.rank)
  reducesTo_S10x128_S_d0_1 : S10x128.ReducesTo [0, 1] S_
  bcast_S_S128x512 : S_.BroadcastsInDim S128x512 (![] : Fin 0 → Fin S128x512.rank)
  reducesTo_S128x512_S_d0_1 : S128x512.ReducesTo [0, 1] S_

variable [Facts]

def fn_part1 {F : FTy → Type} [FloatOps F] (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  main_v18

def fn {F : FTy → Type} [FloatOps F] (main_arg0 : FVec F S32x128 .f32) (main_arg1 : FVec F S10x128 .f32) (main_arg2 : FVec F S128x512 .f32) (main_arg3 : FVec F S128x512 .f32) : IVec S_ 1 :=
  let main_v0 : FVec F S32x128 .f32 := Host.absf main_arg0
  let main_cst : FVec F S_ .f32 := constant S_ .f32 0x7F800000#32
  let main_v1 : FVec F S32x128 .f32 := broadcastInDim S32x128 ![] bcast_S_S32x128 main_cst
  let main_v2 : IVec S32x128 1 := cmpf .olt main_v0 main_v1
  let main_c : IVec S_ 1 := constantI S_ 1 1#1
  let main_v3 : IVec S_ 1 := (fun x v => Host.reduce IntOp.andi x v reducesTo_S32x128_S_d0_1 h_S_) main_v2 main_c
  let main_v4 : FVec F S10x128 .f32 := Host.absf main_arg1
  let main_cst_0 : FVec F S_ .f32 := constant S_ .f32 0x7F800000#32
  let main_v5 : FVec F S10x128 .f32 := broadcastInDim S10x128 ![] bcast_S_S10x128 main_cst_0
  let main_v6 : IVec S10x128 1 := cmpf .olt main_v4 main_v5
  let main_c_1 : IVec S_ 1 := constantI S_ 1 1#1
  let main_v7 : IVec S_ 1 := (fun x v => Host.reduce IntOp.andi x v reducesTo_S10x128_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_v13 main_v16
-- ==== Kernel.lean ====
abbrev S32x128 : Shape := ⟨2, ![32, 128]⟩
abbrev S10x128 : Shape := ⟨2, ![10, 128]⟩
abbrev S128x512 : Shape := ⟨2, ![128, 512]⟩
abbrev S32x512 : Shape := ⟨2, ![32, 512]⟩
abbrev S10x512 : Shape := ⟨2, ![10, 512]⟩
abbrev S32x10 : Shape := ⟨2, ![32, 10]⟩
abbrev S32x118 : Shape := ⟨2, ![32, 118]⟩
abbrev S32 : Shape := ⟨1, ![32]⟩
abbrev S32x1 : Shape := ⟨2, ![32, 1]⟩

abbrev nBuf : Space → Nat
  | .hbm => 6
  | .vmem => 5
  | .smem => 0
  | _ => 0

abbrev bufTy : (tb : Table) → Fin (tcTables nBuf tb) → BufTy
  | .hbm, ⟨0, _⟩ => ⟨S32x128, .f32⟩
  | .hbm, ⟨1, _⟩ => ⟨S10x128, .f32⟩
  | .hbm, ⟨2, _⟩ => ⟨S128x512, .f32⟩
  | .hbm, ⟨3, _⟩ => ⟨S128x512, .f32⟩
  | .hbm, ⟨4, _⟩ => ⟨S32x128, .f32⟩
  | .hbm, ⟨5, _⟩ => ⟨S32x10, .f32⟩
  | .local _ .vmem, ⟨0, _⟩ => ⟨S32x128, .f32⟩
  | .local _ .vmem, ⟨1, _⟩ => ⟨S10x128, .f32⟩
  | .local _ .vmem, ⟨2, _⟩ => ⟨S128x512, .f32⟩
  | .local _ .vmem, ⟨3, _⟩ => ⟨S128x512, .f32⟩
  | .local _ .vmem, ⟨4, _⟩ => ⟨S32x128, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S10x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S32x128_S32x128_0_0 : ∀ a, (![0, 0] : Fin 2 → Nat) a + S32x128.size a ≤ S32x128.size a
  h_S32x128 : 0 < S32x128.numel
  inb_S10x128_S10x128_0_0 : ∀ a, (![0, 0] : Fin 2 → Nat) a + S10x128.size a ≤ S10x128.size a
  h_S10x128 : 0 < S10x128.numel
  inb_S128x512_S128x512_0_0 : ∀ a, (![0, 0] : Fin 2 → Nat) a + S128x512.size a ≤ S128x512.size a
  h_S128x512 : 0 < S128x512.numel
  concatenates_S32x10_S32x118_S32x128_d1 : Shape.Concatenates [S32x10, S32x118] S32x128 1
  reduces_S32x128_S32 : S32x128.Reduces [1] S32
  shapeCasts_S32_S32x1 : S32.ShapeCasts S32x1
  broadcasts_S32x1_S32x128 : S32x1.Broadcasts S32x128
  slices_S32x128_S32x10_0_0 : S32x128.Slices ![0, 0] S32x10
  dot_S32x128_S128x512_S32x512_1_0_0_1_n_n_wf : DotDims.WF S32x128 S128x512 S32x512 [1] [0] [0] [1] [] []
  dot_S10x128_S128x512_S10x512_1_0_0_1_n_n_wf : DotDims.WF S10x128 S128x512 S10x512 [1] [0] [0] [1] [] []
  dot_S32x512_S10x512_S32x10_1_1_0_0_n_n_wf : DotDims.WF S32x512 S10x512 S32x10 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S32x128.size a
  hwx0_0 : ∀ i : grid0.Coords, EltTy.bits .f32 = 32 ∨ (Rect.block (s := S32x128) S32x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x128.size a ≤ S10x128.size a
  hwx0_1 : ∀ i : grid0.Coords, EltTy.bits .f32 = 32 ∨ (Rect.block (s := S10x128) S10x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .f32 = 32 ∨ (Rect.block (s := S32x128) S32x128.size (cc0_transform_4 i) (hinb0_4 i)).WholeWords (EltTy.packing .f32)

variable [Facts₀]

def dot_S32x128_S128x512_S32x512_1_0_0_1_n_n : DotDims S32x128 S128x512 S32x512 where
  lhsContracting := [1]
  rhsContracting := [0]
  lhsNonContracting := [0]
  rhsNonContracting := [1]
  lhsBatch := []
  rhsBatch := []
  wf := dot_S32x128_S128x512_S32x512_1_0_0_1_n_n_wf
def dot_S10x128_S128x512_S10x512_1_0_0_1_n_n : DotDims S10x128 S128x512 S10x512 where
  lhsContracting := [1]
  rhsContracting := [0]
  lhsNonContracting := [0]
  rhsNonContracting := [1]
  lhsBatch := []
  rhsBatch := []
  wf := dot_S10x128_S128x512_S10x512_1_0_0_1_n_n_wf
def dot_S32x512_S10x512_S32x10_1_1_0_0_n_n : DotDims S32x512 S10x512 S32x10 where
  lhsContracting := [1]
  rhsContracting := [1]
  lhsNonContracting := [0]
  rhsNonContracting := [0]
  lhsBatch := []
  rhsBatch := []
  wf := dot_S32x512_S10x512_S32x10_1_1_0_0_n_n_wf

abbrev win0_0 : Pipeline.Window sig grid0 :=
  Pipeline.Window.ofSpec (Memref.whole main_arg0) S32x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S32x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x128 : Shape := ⟨2, ![32, 128]⟩
abbrev S10x128 : Shape := ⟨2, ![10, 128]⟩
abbrev S128x512 : Shape := ⟨2, ![128, 512]⟩
abbrev S32x512 : Shape := ⟨2, ![32, 512]⟩
abbrev S10x512 : Shape := ⟨2, ![10, 512]⟩
abbrev S512x10 : Shape := ⟨2, ![512, 10]⟩
abbrev S32x10 : Shape := ⟨2, ![32, 10]⟩
abbrev S_ : Shape := ⟨0, ![]⟩
abbrev S32 : Shape := ⟨1, ![32]⟩
abbrev S32x1 : Shape := ⟨2, ![32, 1]⟩

abbrev nBuf : Space → Nat
  | .hbm => 23
  | .vmem => 0
  | .smem => 0
  | _ => 0

abbrev bufTy : (tb : Table) → Fin (tcTables nBuf tb) → BufTy
  | .hbm, ⟨0, _⟩ => ⟨S32x128, .f32⟩
  | .hbm, ⟨1, _⟩ => ⟨S10x128, .f32⟩
  | .hbm, ⟨2, _⟩ => ⟨S128x512, .f32⟩
  | .hbm, ⟨3, _⟩ => ⟨S128x512, .f32⟩
  | .hbm, ⟨4, _⟩ => ⟨S32x512, .f32⟩
  | .hbm, ⟨5, _⟩ => ⟨S10x512, .f32⟩
  | .hbm, ⟨6, _⟩ => ⟨S512x10, .f32⟩
  | .hbm, ⟨7, _⟩ => ⟨S32x10, .f32⟩
  | .hbm, ⟨8, _⟩ => ⟨S_, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32x1, .f32⟩
  | .hbm, ⟨14, _⟩ => ⟨S32x10, .f32⟩
  | .hbm, ⟨15, _⟩ => ⟨S32x10, .f32⟩
  | .hbm, ⟨16, _⟩ => ⟨S32x10, .f32⟩
  | .hbm, ⟨17, _⟩ => ⟨S_, .f32⟩
  | .hbm, ⟨18, _⟩ => ⟨S32, .f32⟩
  | .hbm, ⟨19, _⟩ => ⟨S32x1, .f32⟩
  | .hbm, ⟨20, _⟩ => ⟨S32x1, .f32⟩
  | .hbm, ⟨21, _⟩ => ⟨S32x10, .f32⟩
  | .hbm, ⟨22, _⟩ => ⟨S32x10, .f32⟩
  | _, _ => ⟨S32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v4 : Ref sig .tc := ⟨.hbm, 22, rfl⟩

abbrev nD : Nat := 1
abbrev τ : Topo := Topo.v7x

variable {F : FTy → Type} [FloatOps F]

class Facts₀ : Prop where
  transposes_S10x512_S512x10_1_0 : S10x512.Transposes [1, 0] S512x10
  reducesTo_S32x10_S32_d1 : S32x10.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S32x1_S32x10_0_1 : S32x1.BroadcastsInDim S32x10 (![0, 1] : Fin 2 → Fin S32x10.rank)
  dot_S32x128_S128x512_S32x512_1_0_0_1_n_n_wf : DotDims.WF S32x128 S128x512 S32x512 [1] [0] [0] [1] [] []
  dot_S10x128_S128x512_S10x512_1_0_0_1_n_n_wf : DotDims.WF S10x128 S128x512 S10x512 [1] [0] [0] [1] [] []
  dot_S32x512_S512x10_S32x10_1_0_0_1_n_n_wf : DotDims.WF S32x512 S512x10 S32x10 [1] [0] [0] [1] [] []

variable [Facts₀]

def dot_S32x128_S128x512_S32x512_1_0_0_1_n_n : DotDims S32x128 S128x512 S32x512 where
  lhsContracting := [1]
  rhsContracting := [0]
  lhsNonContracting := [0]
  rhsNonContracting := [1]
  lhsBatch := []
  rhsBatch := []
  wf := dot_S32x128_S128x512_S32x512_1_0_0_1_n_n_wf
def dot_S10x128_S128x512_S10x512_1_0_0_1_n_n : DotDims S10x128 S128x512 S10x512 where
  lhsContracting := [1]
  rhsContracting := [0]
  lhsNonContracting := [0]
  rhsNonContracting := [1]
  lhsBatch := []
  rhsBatch := []
  wf := dot_S10x128_S128x512_S10x512_1_0_0_1_n_n_wf
def dot_S32x512_S512x10_S32x10_1_0_0_1_n_n : DotDims S32x512 S512x10 S32x10 where
  lhsContracting := [1]
  rhsContracting := [0]
  lhsNonContracting := [0]
  rhsNonContracting := [1]
  lhsBatch := []
  rhsBatch := []
  wf := dot_S32x512_S512x10_S32x10_1_0_0_1_n_n_wf

class Facts : Prop extends Facts₀ where

variable [Facts]
-- ==== Proof.KernelRun.lean ====
/-
  The kernel's run, read: what the result array holds after the run.

  The grid has one point and every window's block is its whole array, so the one write-back lays the body's result
  over the whole 32×128 output array; the host line after the region then keeps its first ten columns.
-/
import proofs.«413244_j50732153700874_3_alg».proof.Proof.Gen.KernelIdeal.Frame
import Idealize.ShloMosaic.Lib.Pipeline.Value
import Idealize.ShloMosaic.Lib.StableHlo.Run

noncomputable section

namespace Cert.KernelIdeal.RunValue

open Idealize.ShloMosaic Idealize.ShloMosaic.TcCoe Idealize.SL.Sem Cert.KernelIdeal Cert.KernelIdeal.Gen

variable {F : FTy → Type} [FloatOps F] [Named F]
variable (m : (ℓ : Loc nD τ sig) → Buf (Elt F) ℓ) (ρ : Dev nD → PrngReg)

/-- The body's result over the whole argument arrays. -/
abbrev whole (c : Dev nD) : Vec F S32x128 .f32 :=
  k0_pay1 (V m c main_arg0) (V m c main_arg1) (V m c main_arg2) (V m c main_arg3)

theorem iblk0 (c : Dev nD) (t : Fin cfg0.N) : iblk m c 0 t = V m c main_arg0 := by
  obtain rfl := fin_N0 t
  unfold iblk
  have hz' : (fun a => win0_0.index t0_0 a * main_arg0.ty.shape.size a) = fun _ => 0 := funext fun a => by fin_cases a <;> decide +kernel
  exact Memref.read_access_unit_zero (Elt F) main_arg0 hz' (fun a => by rw [congrFun hz' a]; simp) (V m c main_arg0)

theorem iblk1 (c : Dev nD) (t : Fin cfg0.N) : iblk m c 1 t = V m c main_arg1 := by
  obtain rfl := fin_N0 t
  unfold iblk
  have hz' : (fun a => win0_1.index t0_0 a * main_arg1.ty.shape.size a) = fun _ => 0 := funext fun a => by fin_cases a <;> decide +kernel
  exact Memref.read_access_unit_zero (Elt F) main_arg1 hz' (fun a => by rw [congrFun hz' a]; simp) (V m c main_arg1)

theorem iblk2 (c : Dev nD) (t : Fin cfg0.N) : iblk m c 2 t = V m c main_arg2 := by
  obtain rfl := fin_N0 t
  unfold iblk
  have hz' : (fun a => win0_2.index t0_0 a * main_arg2.ty.shape.size a) = fun _ => 0 := funext fun a => by fin_cases a <;> decide +kernel
  exact Memref.read_access_unit_zero (Elt F) main_arg2 hz' (fun a => by rw [congrFun hz' a]; simp) (V m c main_arg2)

theorem iblk3 (c : Dev nD) (t : Fin cfg0.N) : iblk m c 3 t = V m c main_arg3 := by
  obtain rfl := fin_N0 t
  unfold iblk
  have hz' : (fun a => win0_3.index t0_0 a * main_arg3.ty.shape.size a) = fun _ => 0 := funext fun a => by fin_cases a <;> decide +kernel
  exact Memref.read_access_unit_zero (Elt F) main_arg3 hz' (fun a => by rw [congrFun hz' a]; simp) (V m c main_arg3)

theorem hz : (![0, 0] : Fin 2 → Nat) = fun _ => 0 := funext fun a => by fin_cases a <;> rfl

/-- The one write-back writes the body's result over the whole arrays. -/
theorem flushed_eq (c : Dev nD) (t : Fin cfg0.N) :
    (dats m 0 c).flushed 4 t = ((cfg0.win 4).blk t).view.read (Elt F) (whole m c) := by
  show (cfg0.win 4).cut (grid0.coords t) ((dats m 0 c).after 4 t) = _
  rw [after0_4]
  unfold out0_4
  rw [View.canon_unit_zero hz]
  simp only [View.ld_unit_zero (S := S32x128) hz, View.ld_unit_zero (S := S10x128) hz, View.ld_unit_zero (S := S128x512) hz]
  rw [iblk0, iblk1, iblk2, iblk3]
  obtain rfl := fin_N0 t
  have hz' : (fun a => win0_4.index t0_0 a * main_v0.ty.shape.size a) = fun _ => 0 := funext fun a => by fin_cases a <;> decide +kernel
  exact (Memref.read_access_unit_zero (Elt F) main_v0 hz' (fun a => by rw [congrFun hz' a]; simp) (whole m c)).symm

/-- The one point's block covers the output array, so the array ends holding the body's result. -/
theorem final (c : Dev nD) : (dats m 0 c).arrAt 4 cfg0.N = whole m c :=
  (dats m 0 c).arrAt_eq_of_cover 4 (whole m c) (fun t _ => flushed_eq m c t) fun i =>
    ⟨t0_0, flush0_4 t0_0, by
      show i ∈ ((View.whole main_v0).slice (win0_4.rect t0_0)).set
      rw [View.set_slice_whole, Rect.mem_set_unit]
      intro a
      have h0 : (i 0 : Nat) < 32 := (i 0).isLt
      have h1 : (i 1 : Nat) < 128 := (i 1).isLt
      match a with
      | ⟨0, _⟩ => show win0_4.index t0_0 0 * win0_4.size 0 ≤ (i 0 : Nat) ∧ (i 0 : Nat) < win0_4.index t0_0 0 * win0_4.size 0 + win0_4.xsize (grid0.coords t0_0) 0
                  rw [show win0_4.index t0_0 0 * win0_4.size 0 = 0 from by decide +kernel, show win0_4.xsize (grid0.coords t0_0) 0 = 32 from by decide +kernel]; omega
      | ⟨1, _⟩ => show win0_4.index t0_0 1 * win0_4.size 1 ≤ (i 1 : Nat) ∧ (i 1 : Nat) < win0_4.index t0_0 1 * win0_4.size 1 + win0_4.xsize (grid0.coords t0_0) 1
                  rw [show win0_4.index t0_0 1 * win0_4.size 1 = 0 from by decide +kernel, show win0_4.xsize (grid0.coords t0_0) 1 = 128 from by decide +kernel]; omega⟩

/-- The result buffer is written by no window: it is among the buffers the lines after the region leave. -/
theorem v1_rest : main_v1 ∈ Pipeline.restRefs sig spec0 :=
  Pipeline.mem_restRefs_of main_v1 rfl (by decide)

/-- After the slice that follows the region, the result buffer holds the first ten columns of the output array. -/
theorem tail_v1 (c : Dev nD) :
    Pipeline.afterTail₀ cfgs (dats m) 0 (V0 m) [hostOps1] c main_v1
      = extractStridedSlice S32x10 ![0, 0] (whole m c) slices_S32x128_S32x10_0_0 := by
  unfold Pipeline.afterTail₀
  show StableHlo.after hostOps1 _ (Proc.devRef .tc main_v1) = _
  after_results
  exact congrArg (fun x => extractStridedSlice S32x10 ![0, 0] x slices_S32x128_S32x10_0_0)
    ((Pipeline.withArrays_arr spec0 launch0.win.arr_inj c (V0 m c) (fun w => (dats m 0 c).arrAt w (cfgs 0).N) 4).trans (final m c))

/-- THE RUN, READ: every weakly fair execution ends with the result buffer at the first ten columns of the body's
    result over the whole argument arrays, and the arguments unchanged. -/
theorem run : θ_run defs (onTc (τ := τ) (main (F := F))) ⟨m, fun _ => 0, ρ⟩ fun r => ∀ c : Dev nD,
      r.2.mem ((c.tc : Thread nD τ).loc main_v1) = extractStridedSlice S32x10 ![0, 0] (whole m c) slices_S32x128_S32x10_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v1 v1_rest).trans (tail_v1 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.RunValue

end
-- ==== Proof.PadLemmas.lean ====
/-
  Padding a row with -∞ changes neither its maximum nor its sum of exponentials.

  A row `g` of `n` extended reals is laid into a longer row `f` of `m ≥ n` entries whose extra entries are `⊥`.
  The fold of `max` over the long row, from any initial value, is the fold over the short row (the extra entries are
  below everything); and a sum over the long row whose extra terms vanish is the sum over the short row. With
  `exp ⊥ = 0` and `⊥ - M = ⊥` on the extended reals, the shifted exponentials of the extra entries vanish, so the
  log-sum-exp of the padded row is that of the row itself.
-/
import Idealize.ShloMosaic.PureOps.Ideal
import Mathlib.Data.Finset.Fold
import Mathlib.Data.Fin.Embedding
import Mathlib.Algebra.BigOperators.Fin

noncomputable section

namespace Cert.PadLemmas

open Idealize.ShloMosaic

/-- The fold of `max` over a row padded with `⊥` is the fold over the row. -/
theorem fold_max_pad {n m : ℕ} (h : n ≤ m) (b : EReal) (f : Fin m → EReal) (g : Fin n → EReal)
    (hg : ∀ c : Fin n, f (Fin.castLE h c) = g c) (hb : ∀ l : Fin m, n ≤ l.val → f l = ⊥) :
    (Finset.univ : Finset (Fin m)).fold max b f = (Finset.univ : Finset (Fin n)).fold max b g := by
  apply le_antisymm
  · rw [Finset.fold_max_le]
    refine ⟨(Finset.le_fold_max _).mpr (Or.inl le_rfl), fun l _ => ?_⟩
    by_cases hl : l.val < n
    · have e : f l = g ⟨l.val, hl⟩ := by rw [← hg ⟨l.val, hl⟩]; rfl
      rw [e]
      exact (Finset.le_fold_max _).mpr (Or.inr ⟨_, Finset.mem_univ _, le_rfl⟩)
    · rw [hb l (by omega)]; exact bot_le
  · rw [Finset.fold_max_le]
    refine ⟨(Finset.le_fold_max _).mpr (Or.inl le_rfl), fun c _ => ?_⟩
    rw [← hg c]
    exact (Finset.le_fold_max _).mpr (Or.inr ⟨_, Finset.mem_univ _, le_rfl⟩)

/-- A sum over a long row whose terms past `n` vanish is the sum of its first `n` terms. -/
theorem sum_pad {n m : ℕ} (h : n ≤ m) (f : Fin m → EReal) (hz : ∀ l : Fin m, n ≤ l.val → f l = 0) :
    ∑ l, f l = ∑ c : Fin n, f (Fin.castLE h c) := by
  have e : ∑ c : Fin n, f (Fin.castLE h c) = ∑ l ∈ (Finset.univ : Finset (Fin n)).map (Fin.castLEEmb h), f l :=
    (Finset.sum_map Finset.univ (Fin.castLEEmb h) f).symm
  rw [e]
  symm
  apply Finset.sum_subset (Finset.subset_univ _)
  intro l _ hl
  apply hz
  by_contra hlt
  exact hl (Finset.mem_map.mpr ⟨⟨l.val, by omega⟩, Finset.mem_univ _, Fin.ext rfl⟩)

/-- The log-softmax of a row `g` at entry `q`, with the row's maximum folded from the initial value `b` and taken
    once more against `b`: `(g q - M) - log (∑ c, exp (g c - M))`. -/
def lsm {n : ℕ} (b : EReal) (g : Fin n → EReal) (q : Fin n) : EReal :=
  (g q - max b ((Finset.univ : Finset (Fin n)).fold max b g))
    - Ideal.log (∑ c, Ideal.exp (g c - max b ((Finset.univ : Finset (Fin n)).fold max b g)))

/-- The log-softmax of a row padded with `⊥`, read at an entry of the row, is the log-softmax of the row: the
    maximum is the row's (`fold_max_pad`), and the padded entries' shifted exponentials are `exp (⊥ - M) = exp ⊥ = 0`,
    so the sum of exponentials is the row's too (`sum_pad`). -/
theorem lsm_pad {n m : ℕ} (h : n ≤ m) (b : EReal) (f : Fin m → EReal) (g : Fin n → EReal)
    (hg : ∀ c : Fin n, f (Fin.castLE h c) = g c) (hb : ∀ l : Fin m, n ≤ l.val → f l = ⊥) (q : Fin n) :
    lsm b f (Fin.castLE h q) = lsm b g q := by
  unfold lsm
  rw [fold_max_pad h b f g hg hb, hg q]
  congr 2
  rw [sum_pad h (fun l => Ideal.exp (f l - max b ((Finset.univ : Finset (Fin n)).fold max b g)))
    (fun l hl => by rw [hb l hl, EReal.bot_sub, Ideal.exp_bot])]
  exact Finset.sum_congr rfl fun c _ => by rw [hg c]

end Cert.PadLemmas

end
-- ==== Proof.KernelMatmul.lean ====
/-
  The kernel body's three matrix products, read at an entry.

  `x·U` at `(p, k)` is `∑ d, x (p, d) · U (d, k)`; `μ·V` at `(c, k)` is `∑ d, μ (c, d) · V (d, k)`; and the third
  product contracts the two over their SHARED second axis, so at `(p, c)` it is `∑ k, (x·U) (p, k) · (μ·V) (c, k)`:
  the product with the transpose, without a transpose being formed. Each is a matrix product into a zero
  accumulator, which at the ideal values is the bare sum over the contraction index.
-/
import proofs.«413244_j50732153700874_3_alg».proof.Proof.Gen.KernelIdeal.Skeleton
import Idealize.ShloMosaic.Lib.ValueIdx
import Idealize.ShloMosaic.PureOps.Ideal.Laws

noncomputable section

namespace Cert.KernelIdeal.Row

open Idealize.ShloMosaic Idealize.ShloMosaic.ValueIdx Cert.KernelIdeal Cert.KernelIdeal.Gen

/-! ## The operand indices of the three products, axis by axis -/

theorem lhs1_0 (i : S32x512.Idx) (q : dot_S32x128_S128x512_S32x512_1_0_0_1_n_n.contr.Idx) :
    (dot_S32x128_S128x512_S32x512_1_0_0_1_n_n.lhsIdx i q 0).val = (i 0).val := by
  unfold DotDims.lhsIdx
  rw [dif_neg (show ¬(0 : Fin S32x128.rank) ∈ dot_S32x128_S128x512_S32x512_1_0_0_1_n_n.lhsBatch by decide), dif_pos (show (0 : Fin S32x128.rank) ∈ dot_S32x128_S128x512_S32x512_1_0_0_1_n_n.lhsNonContracting by decide)]
  rfl
theorem lhs1_1 (i : S32x512.Idx) (q : dot_S32x128_S128x512_S32x512_1_0_0_1_n_n.contr.Idx) :
    (dot_S32x128_S128x512_S32x512_1_0_0_1_n_n.lhsIdx i q 1).val = (q ⟨0, by decide⟩).val :=
  dot_S32x128_S128x512_S32x512_1_0_0_1_n_n.lhsIdx_val_of_single rfl i q
theorem rhs1_1 (i : S32x512.Idx) (q : dot_S32x128_S128x512_S32x512_1_0_0_1_n_n.contr.Idx) :
    (dot_S32x128_S128x512_S32x512_1_0_0_1_n_n.rhsIdx i q 1).val = (i 1).val := by
  unfold DotDims.rhsIdx
  rw [dif_neg (show ¬(1 : Fin S128x512.rank) ∈ dot_S32x128_S128x512_S32x512_1_0_0_1_n_n.rhsBatch by decide), dif_pos (show (1 : Fin S128x512.rank) ∈ dot_S32x128_S128x512_S32x512_1_0_0_1_n_n.rhsNonContracting by decide)]
  rfl
theorem rhs1_0 (i : S32x512.Idx) (q : dot_S32x128_S128x512_S32x512_1_0_0_1_n_n.contr.Idx) :
    (dot_S32x128_S128x512_S32x512_1_0_0_1_n_n.rhsIdx i q 0).val = (q ⟨0, by decide⟩).val :=
  dot_S32x128_S128x512_S32x512_1_0_0_1_n_n.rhsIdx_val_of_single rfl i q

theorem lhs2_0 (i : S10x512.Idx) (q : dot_S10x128_S128x512_S10x512_1_0_0_1_n_n.contr.Idx) :
    (dot_S10x128_S128x512_S10x512_1_0_0_1_n_n.lhsIdx i q 0).val = (i 0).val := by
  unfold DotDims.lhsIdx
  rw [dif_neg (show ¬(0 : Fin S10x128.rank) ∈ dot_S10x128_S128x512_S10x512_1_0_0_1_n_n.lhsBatch by decide), dif_pos (show (0 : Fin S10x128.rank) ∈ dot_S10x128_S128x512_S10x512_1_0_0_1_n_n.lhsNonContracting by decide)]
  rfl
theorem lhs2_1 (i : S10x512.Idx) (q : dot_S10x128_S128x512_S10x512_1_0_0_1_n_n.contr.Idx) :
    (dot_S10x128_S128x512_S10x512_1_0_0_1_n_n.lhsIdx i q 1).val = (q ⟨0, by decide⟩).val :=
  dot_S10x128_S128x512_S10x512_1_0_0_1_n_n.lhsIdx_val_of_single rfl i q
theorem rhs2_1 (i : S10x512.Idx) (q : dot_S10x128_S128x512_S10x512_1_0_0_1_n_n.contr.Idx) :
    (dot_S10x128_S128x512_S10x512_1_0_0_1_n_n.rhsIdx i q 1).val = (i 1).val := by
  unfold DotDims.rhsIdx
  rw [dif_neg (show ¬(1 : Fin S128x512.rank) ∈ dot_S10x128_S128x512_S10x512_1_0_0_1_n_n.rhsBatch by decide), dif_pos (show (1 : Fin S128x512.rank) ∈ dot_S10x128_S128x512_S10x512_1_0_0_1_n_n.rhsNonContracting by decide)]
  rfl
theorem rhs2_0 (i : S10x512.Idx) (q : dot_S10x128_S128x512_S10x512_1_0_0_1_n_n.contr.Idx) :
    (dot_S10x128_S128x512_S10x512_1_0_0_1_n_n.rhsIdx i q 0).val = (q ⟨0, by decide⟩).val :=
  dot_S10x128_S128x512_S10x512_1_0_0_1_n_n.rhsIdx_val_of_single rfl i q

theorem lhs3_0 (i : S32x10.Idx) (q : dot_S32x512_S10x512_S32x10_1_1_0_0_n_n.contr.Idx) :
    (dot_S32x512_S10x512_S32x10_1_1_0_0_n_n.lhsIdx i q 0).val = (i 0).val := by
  unfold DotDims.lhsIdx
  rw [dif_neg (show ¬(0 : Fin S32x512.rank) ∈ dot_S32x512_S10x512_S32x10_1_1_0_0_n_n.lhsBatch by decide), dif_pos (show (0 : Fin S32x512.rank) ∈ dot_S32x512_S10x512_S32x10_1_1_0_0_n_n.lhsNonContracting by decide)]
  rfl
theorem lhs3_1 (i : S32x10.Idx) (q : dot_S32x512_S10x512_S32x10_1_1_0_0_n_n.contr.Idx) :
    (dot_S32x512_S10x512_S32x10_1_1_0_0_n_n.lhsIdx i q 1).val = (q ⟨0, by decide⟩).val :=
  dot_S32x512_S10x512_S32x10_1_1_0_0_n_n.lhsIdx_val_of_single rfl i q
theorem rhs3_0 (i : S32x10.Idx) (q : dot_S32x512_S10x512_S32x10_1_1_0_0_n_n.contr.Idx) :
    (dot_S32x512_S10x512_S32x10_1_1_0_0_n_n.rhsIdx i q 0).val = (i 1).val := by
  unfold DotDims.rhsIdx
  rw [dif_neg (show ¬(0 : Fin S10x512.rank) ∈ dot_S32x512_S10x512_S32x10_1_1_0_0_n_n.rhsBatch by decide), dif_pos (show (0 : Fin S10x512.rank) ∈ dot_S32x512_S10x512_S32x10_1_1_0_0_n_n.rhsNonContracting by decide)]
  rfl
theorem rhs3_1 (i : S32x10.Idx) (q : dot_S32x512_S10x512_S32x10_1_1_0_0_n_n.contr.Idx) :
    (dot_S32x512_S10x512_S32x10_1_1_0_0_n_n.rhsIdx i q 1).val = (q ⟨0, by decide⟩).val :=
  dot_S32x512_S10x512_S32x10_1_1_0_0_n_n.rhsIdx_val_of_single rfl i q

/-! ## The products at an entry -/

/-- `x·U` at `(p, k)`. -/
theorem xU_apply (x0 : FVec Ideal S32x128 .f32) (x2 : FVec Ideal S128x512 .f32) (p : Fin 32) (k : Fin 512) :
    matmul dot_S32x128_S128x512_S32x512_1_0_0_1_n_n (some .fp32) x0 x2 (constant S32x512 .f32 0x00000000#32) (ix2 p k)
      = ∑ d : Fin 128, x0 (ix2 p d) * x2 (ix2 d k) := by
  simp only [matmul]
  rw [Ideal.matmul_constant_zero_apply, ← Equiv.sum_comp (contrEquiv1 dot_S32x128_S128x512_S32x512_1_0_0_1_n_n 128 rfl rfl).symm]
  refine Finset.sum_congr rfl fun d _ => ?_
  have hk := contrEquiv1_symm_val dot_S32x128_S128x512_S32x512_1_0_0_1_n_n 128 rfl rfl d
  have el : dot_S32x128_S128x512_S32x512_1_0_0_1_n_n.lhsIdx (ix2 p k) ((contrEquiv1 dot_S32x128_S128x512_S32x512_1_0_0_1_n_n 128 rfl rfl).symm d) = ix2 p d := funext fun a => Fin.ext (by
    match a with
    | ⟨0, _⟩ => exact lhs1_0 _ _
    | ⟨1, _⟩ => exact (lhs1_1 _ _).trans hk)
  have er : dot_S32x128_S128x512_S32x512_1_0_0_1_n_n.rhsIdx (ix2 p k) ((contrEquiv1 dot_S32x128_S128x512_S32x512_1_0_0_1_n_n 128 rfl rfl).symm d) = ix2 d k := funext fun a => Fin.ext (by
    match a with
    | ⟨0, _⟩ => exact (rhs1_0 _ _).trans hk
    | ⟨1, _⟩ => exact rhs1_1 _ _)
  rw [el, er]

/-- `μ·V` at `(c, k)`. -/
theorem muV_apply (x1 : FVec Ideal S10x128 .f32) (x3 : FVec Ideal S128x512 .f32) (c : Fin 10) (k : Fin 512) :
    matmul dot_S10x128_S128x512_S10x512_1_0_0_1_n_n (some .fp32) x1 x3 (constant S10x512 .f32 0x00000000#32) (ix2 c k)
      = ∑ d : Fin 128, x1 (ix2 c d) * x3 (ix2 d k) := by
  simp only [matmul]
  rw [Ideal.matmul_constant_zero_apply, ← Equiv.sum_comp (contrEquiv1 dot_S10x128_S128x512_S10x512_1_0_0_1_n_n 128 rfl rfl).symm]
  refine Finset.sum_congr rfl fun d _ => ?_
  have hk := contrEquiv1_symm_val dot_S10x128_S128x512_S10x512_1_0_0_1_n_n 128 rfl rfl d
  have el : dot_S10x128_S128x512_S10x512_1_0_0_1_n_n.lhsIdx (ix2 c k) ((contrEquiv1 dot_S10x128_S128x512_S10x512_1_0_0_1_n_n 128 rfl rfl).symm d) = ix2 c d := funext fun a => Fin.ext (by
    match a with
    | ⟨0, _⟩ => exact lhs2_0 _ _
    | ⟨1, _⟩ => exact (lhs2_1 _ _).trans hk)
  have er : dot_S10x128_S128x512_S10x512_1_0_0_1_n_n.rhsIdx (ix2 c k) ((contrEquiv1 dot_S10x128_S128x512_S10x512_1_0_0_1_n_n 128 rfl rfl).symm d) = ix2 d k := funext fun a => Fin.ext (by
    match a with
    | ⟨0, _⟩ => exact (rhs2_0 _ _).trans hk
    | ⟨1, _⟩ => exact rhs2_1 _ _)
  rw [el, er]

/-- The product over the shared axis: `A` times the transpose of `B`, at `(p, c)`. -/
theorem ABt_apply (A : FVec Ideal S32x512 .f32) (B : FVec Ideal S10x512 .f32) (p : Fin 32) (c : Fin 10) :
    matmul dot_S32x512_S10x512_S32x10_1_1_0_0_n_n (some .fp32) A B (constant S32x10 .f32 0x00000000#32) (ix2 p c)
      = ∑ k : Fin 512, A (ix2 p k) * B (ix2 c k) := by
  simp only [matmul]
  rw [Ideal.matmul_constant_zero_apply, ← Equiv.sum_comp (contrEquiv1 dot_S32x512_S10x512_S32x10_1_1_0_0_n_n 512 rfl rfl).symm]
  refine Finset.sum_congr rfl fun k _ => ?_
  have hk := contrEquiv1_symm_val dot_S32x512_S10x512_S32x10_1_1_0_0_n_n 512 rfl rfl k
  have el : dot_S32x512_S10x512_S32x10_1_1_0_0_n_n.lhsIdx (ix2 p c) ((contrEquiv1 dot_S32x512_S10x512_S32x10_1_1_0_0_n_n 512 rfl rfl).symm k) = ix2 p k := funext fun a => Fin.ext (by
    match a with
    | ⟨0, _⟩ => exact lhs3_0 _ _
    | ⟨1, _⟩ => exact (lhs3_1 _ _).trans hk)
  have er : dot_S32x512_S10x512_S32x10_1_1_0_0_n_n.rhsIdx (ix2 p c) ((contrEquiv1 dot_S32x512_S10x512_S32x10_1_1_0_0_n_n 512 rfl rfl).symm k) = ix2 c k := funext fun a => Fin.ext (by
    match a with
    | ⟨0, _⟩ => exact rhs3_0 _ _
    | ⟨1, _⟩ => exact (rhs3_1 _ _).trans hk)
  rw [el, er]

/-- `h = (x·U)·(μ·V)ᵀ` as the body forms it. -/
abbrev hK (x0 : FVec Ideal S32x128 .f32) (x1 : FVec Ideal S10x128 .f32) (x2 x3 : FVec Ideal S128x512 .f32) : FVec Ideal S32x10 .f32 :=
  matmul dot_S32x512_S10x512_S32x10_1_1_0_0_n_n (some .fp32)
    (matmul dot_S32x128_S128x512_S32x512_1_0_0_1_n_n (some .fp32) x0 x2 (constant S32x512 .f32 0x00000000#32))
    (matmul dot_S10x128_S128x512_S10x512_1_0_0_1_n_n (some .fp32) x1 x3 (constant S10x512 .f32 0x00000000#32))
    (constant S32x10 .f32 0x00000000#32)

/-- `h` at `(p, c)`: the double sum. -/
theorem hK_apply (x0 : FVec Ideal S32x128 .f32) (x1 : FVec Ideal S10x128 .f32) (x2 x3 : FVec Ideal S128x512 .f32) (p : Fin 32) (c : Fin 10) :
    hK x0 x1 x2 x3 (ix2 p c)
      = ∑ k : Fin 512, (∑ d : Fin 128, x0 (ix2 p d) * x2 (ix2 d k)) * (∑ d : Fin 128, x1 (ix2 c d) * x3 (ix2 d k)) := by
  refine (ABt_apply _ _ p c).trans ?_
  exact Finset.sum_congr rfl fun k _ => by rw [xU_apply, muV_apply]

end Cert.KernelIdeal.Row

end
-- ==== Proof.KernelRow.lean ====
/-
  The kernel body's result, read at one entry.

  The body forms `h = (x·U)·(μ·V)ᵀ` (three matrix products into zero accumulators), lays each row of `h` (10 entries)
  into a row of 128 lanes whose other 118 lanes hold the named constant (`⊥` at the ideal values), and takes the
  log-softmax of the 128-lane rows. Read at row `p` and one of the first ten lanes `q`, that is the log-softmax of
  the ten-entry row `h p ·` at `q`: the padded lanes neither raise the maximum nor add to the sum of exponentials.
-/
import proofs.«413244_j50732153700874_3_alg».proof.Proof.Gen.KernelIdeal.Skeleton
import proofs.«413244_j50732153700874_3_alg».proof.Proof.PadLemmas
import proofs.«413244_j50732153700874_3_alg».proof.Proof.KernelMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Row

open Idealize.ShloMosaic Idealize.ShloMosaic.ValueIdx Cert.KernelIdeal Cert.KernelIdeal.Gen Cert.PadLemmas

/-- The row index `p` with lane `l` put back on the reduced axis is `(p, l)`. -/
theorem lift_row (h : S32x128.Reduces [1] S32) (p : Fin 32) (l : Fin (S32x128.size 1)) :
    h.lift (ix1 p) l = ix2 p (⟨l.val, l.isLt⟩ : Fin 128) := by
  funext c; apply Fin.ext
  fin_cases c <;> rfl

/-- A vector of 32 entries cast to a column and broadcast along the 128 lanes reads, at `(p, l)`, entry `p`. -/
theorem column_apply (y : FVec Ideal S32 .f32) (h1 : S32.ShapeCasts S32x1) (h2 : S32x1.Broadcasts S32x128) (p : Fin 32) (l : Fin 128) :
    broadcastTo S32x128 (shapeCast S32x1 y h1) h2 (ix2 p l) = y (ix1 p) := by
  refine (broadcastTo_apply (shapeCast S32x1 y h1) h2 (ix2 p l) (ix2 p (0 : Fin 1)) fun ax => ?_).trans ?_
  · match ax with
    | ⟨0, _⟩ => rfl
    | ⟨1, _⟩ => rfl
  · exact shapeCast_apply y h1 (ix2 p (0 : Fin 1)) (ix1 p) (by
      rw [Shape.rowMajor_val_two, Shape.rowMajor_val_one]
      show p.val = p.val * 1 + 0
      omega)

/-! ## The padded rows -/

/-- The 128-lane rows: `hv`'s row in the first ten lanes, the fill `nb` in the other 118. -/
abbrev padded (hv : FVec Ideal S32x10 .f32) (nb : Ideal .f32) : FVec Ideal S32x128 .f32 :=
  concatenate S32x128 1 [⟨S32x10, hv⟩, ⟨S32x118, broadcast S32x118 nb⟩] concatenates_S32x10_S32x118_S32x128_d1

/-- A lane below ten holds the row's entry. -/
theorem padded_left (hv : FVec Ideal S32x10 .f32) (nb : Ideal .f32) (p : Fin 32) (q : Fin 10) :
    padded hv nb (ix2 p (Fin.castLE (by decide : 10 ≤ 128) q)) = hv (ix2 p q) :=
  concatenate_pair_apply_left (1 : Fin S32x128.rank) hv (broadcast S32x118 nb) concatenates_S32x10_S32x118_S32x128_d1
    (ix2 p (Fin.castLE (by decide : 10 ≤ 128) q)) rfl (ix2 p q) (fun b => match b with
      | ⟨0, _⟩ => rfl
      | ⟨1, _⟩ => rfl)

/-- A lane from ten on holds the fill. -/
theorem padded_right (hv : FVec Ideal S32x10 .f32) (nb : Ideal .f32) (p : Fin 32) (l : Fin 128) (hl : 10 ≤ l.val) :
    padded hv nb (ix2 p l) = nb :=
  concatenate_pair_apply_right (1 : Fin S32x128.rank) hv (broadcast S32x118 nb) concatenates_S32x10_S32x118_S32x128_d1
    (ix2 p l) rfl rfl (ix2 p (⟨l.val - 10, by have := l.isLt; omega⟩ : Fin 118)) (fun b hb => match b, hb with
      | ⟨0, _⟩, _ => rfl
      | ⟨1, _⟩, hb => absurd rfl hb)
    (by show l.val - 10 + 10 = l.val; omega)

/-! ## The log-softmax of 128-lane rows, as the body spells it -/

/-- Each row's maximum: the lane reduction from `-∞`, then once more against `-∞`. -/
abbrev rowMaxV (v : FVec Ideal S32x128 .f32) : FVec Ideal S32 .f32 :=
  maximumf (broadcast S32 (Scalar.ofBits .f32 0xFF800000#32))
    (multiReduction .maximumf [1] S32 v 0xFF800000#32 reduces_S32x128_S32 (.inl rfl) rfl)

/-- The rows shifted by their maxima. -/
abbrev shiftedV (v : FVec Ideal S32x128 .f32) : FVec Ideal S32x128 .f32 :=
  subf v (broadcastTo S32x128 (shapeCast S32x1 (rowMaxV v) shapeCasts_S32_S32x1) broadcasts_S32x1_S32x128)

/-- The logarithm of each row's sum of exponentials, as a column. -/
abbrev lseV (v : FVec Ideal S32x128 .f32) : FVec Ideal S32x1 .f32 :=
  log (shapeCast S32x1 (multiReduction .add [1] S32 (exp v) 0x00000000#32 reduces_S32x128_S32 (.inl rfl) rfl) shapeCasts_S32_S32x1)

/-- The log-softmax of the rows. -/
abbrev logsoftmaxV (v : FVec Ideal S32x128 .f32) : FVec Ideal S32x128 .f32 :=
  subf (shiftedV v) (broadcastTo S32x128 (lseV (shiftedV v)) broadcasts_S32x1_S32x128)

/-- Row `p`'s maximum is the fold of `max` over its 128 lanes. -/
theorem rowMaxV_apply (v : FVec Ideal S32x128 .f32) (p : Fin 32) :
    rowMaxV v (ix1 p) = max (Ideal.ofBits .f32 0xFF800000#32)
      ((Finset.univ : Finset (Fin 128)).fold max (Ideal.ofBits .f32 0xFF800000#32) (fun l => v (ix2 p l))) := by
  show max (Ideal.ofBits .f32 0xFF800000#32) (multiReduction .maximumf [1] S32 v 0xFF800000#32 reduces_S32x128_S32 (.inl rfl) rfl (ix1 p)) = _
  refine congrArg (max (Ideal.ofBits .f32 0xFF800000#32)) ?_
  refine (Ideal.multiReduction_maximumf_single v 0xFF800000#32 reduces_S32x128_S32 (.inl rfl) rfl (ix1 p)).trans ?_
  exact congrArg (fun f => Finset.fold max (Ideal.ofBits .f32 0xFF800000#32) f (Finset.univ : Finset (Fin 128)))
    (funext fun l => congrArg v (lift_row reduces_S32x128_S32 p l))

/-- The shifted rows at `(p, l)`. -/
theorem shiftedV_apply (v : FVec Ideal S32x128 .f32) (p : Fin 32) (l : Fin 128) :
    shiftedV v (ix2 p l) = v (ix2 p l) - rowMaxV v (ix1 p) := by
  show v (ix2 p l) - broadcastTo S32x128 (shapeCast S32x1 (rowMaxV v) shapeCasts_S32_S32x1) broadcasts_S32x1_S32x128 (ix2 p l) = _
  rw [column_apply]

/-- Row `p`'s log-sum-exp. -/
theorem lseV_apply (v : FVec Ideal S32x128 .f32) (p : Fin 32) :
    lseV v (ix2 p (0 : Fin 1)) = Ideal.log (∑ l : Fin 128, Ideal.exp (v (ix2 p l))) := by
  show Ideal.log (shapeCast S32x1 (multiReduction .add [1] S32 (exp v) 0x00000000#32 reduces_S32x128_S32 (.inl rfl) rfl) shapeCasts_S32_S32x1 (ix2 p (0 : Fin 1))) = _
  refine congrArg Ideal.log ?_
  refine (shapeCast_apply _ shapeCasts_S32_S32x1 (ix2 p (0 : Fin 1)) (ix1 p) (by
      rw [Shape.rowMajor_val_two, Shape.rowMajor_val_one]
      show p.val = p.val * 1 + 0
      omega)).trans ?_
  refine (Ideal.multiReduction_add_single (exp v) 0x00000000#32 reduces_S32x128_S32 (.inl rfl) rfl (ix1 p)).trans ?_
  exact Finset.sum_congr rfl fun l _ => congrArg (fun i => Ideal.exp (v i)) (lift_row reduces_S32x128_S32 p l)

/-- The log-softmax of the rows at `(p, l)` is the log-softmax of row `p`'s 128 lanes at `l`. -/
theorem logsoftmaxV_apply (v : FVec Ideal S32x128 .f32) (p : Fin 32) (l : Fin 128) :
    logsoftmaxV v (ix2 p l) = lsm (Ideal.ofBits .f32 0xFF800000#32) (fun l' => v (ix2 p l')) l := by
  show shiftedV v (ix2 p l) - broadcastTo S32x128 (lseV (shiftedV v)) broadcasts_S32x1_S32x128 (ix2 p l) = _
  rw [broadcastTo_apply (lseV (shiftedV v)) broadcasts_S32x1_S32x128 (ix2 p l) (ix2 p (0 : Fin 1)) (fun ax => match ax with
      | ⟨0, _⟩ => rfl
      | ⟨1, _⟩ => rfl),
    lseV_apply, shiftedV_apply, rowMaxV_apply]
  unfold lsm
  congr 2
  exact Finset.sum_congr rfl fun l' _ => by rw [shiftedV_apply, rowMaxV_apply]

/-- The log-softmax of the PADDED rows at one of the first ten lanes is the log-softmax of the ten-entry row. -/
theorem logsoftmax_padded_apply (hv : FVec Ideal S32x10 .f32) (nb : Ideal .f32) (hnb : nb = ⊥) (p : Fin 32) (q : Fin 10) :
    logsoftmaxV (padded hv nb) (ix2 p (Fin.castLE (by decide : 10 ≤ 128) q))
      = lsm (Ideal.ofBits .f32 0xFF800000#32) (fun c => hv (ix2 p c)) q := by
  rw [logsoftmaxV_apply]
  exact lsm_pad (by decide : 10 ≤ 128) _ (fun l => padded hv nb (ix2 p l)) (fun c => hv (ix2 p c))
    (fun c => padded_left hv nb p c) (fun l hl => (padded_right hv nb p l hl).trans hnb) q

/-! ## The body's result -/

/-- The body's result is the log-softmax of `h`'s rows padded with the named constant. -/
theorem pay_eq (x0 : Vec Ideal S32x128 .f32) (x1 : Vec Ideal S10x128 .f32) (x2 x3 : Vec Ideal S128x512 .f32) :
    k0_pay1 (F := Ideal) x0 x1 x2 x3 = logsoftmaxV (padded (hK x0 x1 x2 x3) (Named.named κ "neg_big" 0xFF333332#32)) := rfl

/-- The named constant denotes `⊥` at the ideal values, by the certificate's table. -/
theorem neg_big : Named.named (F := Ideal) κ "neg_big" (φ := .f32) 0xFF333332#32 = (⊥ : EReal) :=
  IdealRules.named_const.ideal_named_scalar _ _ _ _ rfl

/-- The body's result at row `p` and one of the first ten lanes `q`: the log-softmax of row `p` of `h` at `q`. -/
theorem pay_apply (x0 : Vec Ideal S32x128 .f32) (x1 : Vec Ideal S10x128 .f32) (x2 x3 : Vec Ideal S128x512 .f32) (p : Fin 32) (q : Fin 10) :
    k0_pay1 (F := Ideal) x0 x1 x2 x3 (ix2 p (Fin.castLE (by decide : 10 ≤ 128) q))
      = lsm (Ideal.ofBits .f32 0xFF800000#32) (fun c => hK x0 x1 x2 x3 (ix2 p c)) q := by
  rw [pay_eq]
  exact logsoftmax_padded_apply _ _ neg_big p q

end Cert.KernelIdeal.Row

end
-- ==== Proof.RefRow.lean ====
/-
  The reference's result, read at one entry.

  The reference forms `h = (x·U)·(μ·V)ᵀ` by two matrix products, a transpose and a third product, and takes the
  log-softmax of each ten-entry row: the row's maximum (a reduction from `-∞`, taken once more against `-∞`), the
  shifted row, the logarithm of its sum of exponentials (a reduction from `0`), and their difference.
-/
import proofs.«413244_j50732153700874_3_alg».proof.Proof.Gen.ReferenceIdeal.Read
import proofs.«413244_j50732153700874_3_alg».proof.Proof.PadLemmas
import Idealize.ShloMosaic.Lib.ValueIdx
import Idealize.ShloMosaic.PureOps.Ideal.Laws
import Idealize.ShloMosaic.PureOps.Reduce

noncomputable section

namespace Cert.ReferenceIdeal.Row

open Idealize.ShloMosaic Idealize.ShloMosaic.ValueIdx Cert.ReferenceIdeal Cert.ReferenceIdeal.Gen Cert.ReferenceIdeal.Read Cert.PadLemmas

/-- `h` at `(p, c)`: the double sum. -/
theorem h_apply (x0 : FVec Ideal S32x128 .f32) (x1 : FVec Ideal S10x128 .f32) (x2 x3 : FVec Ideal S128x512 .f32) (p : Fin 32) (c : Fin 10) :
    val_main_v3 (F := Ideal) x0 x1 x2 x3 (ix2 p c)
      = ∑ k : Fin 512, (∑ d : Fin 128, x0 (ix2 p d) * x2 (ix2 d k)) * (∑ d : Fin 128, x1 (ix2 c d) * x3 (ix2 d k)) := by
  rw [val_main_v3_apply]
  refine Finset.sum_congr rfl fun k _ => ?_
  rw [val_main_v0_apply, val_main_v2_apply, val_main_v1_apply]
  have e0 : ∀ d : Fin 128, lidx_main_v0 (lidx_main_v3 (ix2 p c) k) d = ix2 p d := fun d =>
    funext fun a => Fin.ext (by match a with | ⟨0, _⟩ => rfl | ⟨1, _⟩ => rfl)
  have e1 : ∀ d : Fin 128, ridx_main_v0 (lidx_main_v3 (ix2 p c) k) d = ix2 d k := fun d =>
    funext fun a => Fin.ext (by match a with | ⟨0, _⟩ => rfl | ⟨1, _⟩ => rfl)
  have e2 : ∀ d : Fin 128, lidx_main_v1 (idx_main_v2 (ridx_main_v3 (ix2 p c) k)) d = ix2 c d := fun d =>
    funext fun a => Fin.ext (by match a with | ⟨0, _⟩ => rfl | ⟨1, _⟩ => rfl)
  have e3 : ∀ d : Fin 128, ridx_main_v1 (idx_main_v2 (ridx_main_v3 (ix2 p c) k)) d = ix2 d k := fun d =>
    funext fun a => Fin.ext (by match a with | ⟨0, _⟩ => rfl | ⟨1, _⟩ => rfl)
  simp only [e0, e1, e2, e3]

/-- The row index `p` with entry `c` put back on the reduced axis is `(p, c)`. -/
theorem lift_row (h : S32x10.Reduces [1] S32) (p : Fin 32) (c : Fin (S32x10.size 1)) :
    h.lift (ix1 p) c = ix2 p (⟨c.val, c.isLt⟩ : Fin 10) := by
  funext a; apply Fin.ext
  fin_cases a <;> rfl

/-- A row's maximum as the host reduces it: the fold of `max` from `-∞` over the row's ten entries. -/
theorem rowmax_of (y : FVec Ideal S32x10 .f32) (p : Fin 32) :
    Host.reduce FloatOps.maximumf y (constant S_ .f32 0xFF800000#32) reducesTo_S32x10_S32_d1 h_S_ (ix1 p)
      = (Finset.univ : Finset (Fin 10)).fold max (Ideal.ofBits .f32 0xFF800000#32) (fun c => y (ix2 p c)) := by
  have hr : S32x10.Reduces [1] S32 := by decide
  refine (Host.reduce_eq_fold_single FloatOps.maximumf y _ reducesTo_S32x10_S32_d1 hr h_S_ (ix1 p)).trans ?_
  exact congrArg (fun f => Finset.fold max (Ideal.ofBits .f32 0xFF800000#32) f (Finset.univ : Finset (Fin 10)))
    (funext fun c => congrArg y (lift_row hr p c))

/-- Row `p`'s maximum of `h`. -/
theorem rowmax_apply (x0 : FVec Ideal S32x128 .f32) (x1 : FVec Ideal S10x128 .f32) (x2 x3 : FVec Ideal S128x512 .f32) (p : Fin 32) :
    val_main_call0_v0 (F := Ideal) x0 x1 x2 x3 (ix1 p)
      = (Finset.univ : Finset (Fin 10)).fold max (Ideal.ofBits .f32 0xFF800000#32) (fun c => val_main_v3 (F := Ideal) x0 x1 x2 x3 (ix2 p c)) :=
  rowmax_of (val_main_v3 (F := Ideal) x0 x1 x2 x3) p

/-- The reference's result at `(p, q)` is the log-softmax of row `p` of `h` at `q`. -/
theorem result_apply (x0 : FVec Ideal S32x128 .f32) (x1 : FVec Ideal S10x128 .f32) (x2 x3 : FVec Ideal S128x512 .f32) (p : Fin 32) (q : Fin 10) :
    val_main_v4 (F := Ideal) x0 x1 x2 x3 (ix2 p q)
      = lsm (Ideal.ofBits .f32 0xFF800000#32) (fun c => val_main_v3 (F := Ideal) x0 x1 x2 x3 (ix2 p c)) q := by
  have er : ∀ c : Fin 10, idx_main_call0_v3 (idx_main_call0_v4 (ix2 p c)) = ix1 p := fun c =>
    funext fun a => Fin.ext (by match a with | ⟨0, _⟩ => rfl)
  have es : idx_main_call0_v8 (idx_main_call0_v10 (ix2 p q)) = ix1 p :=
    funext fun a => Fin.ext (by match a with | ⟨0, _⟩ => rfl)
  have ek : ∀ c : Fin 10, idx_main_call0_v7 (ix1 p) c = ix2 p c := fun c =>
    funext fun a => Fin.ext (by match a with | ⟨0, _⟩ => rfl | ⟨1, _⟩ => rfl)
  have hshift : ∀ c : Fin 10, val_main_call0_v5 (F := Ideal) x0 x1 x2 x3 (ix2 p c)
      = val_main_v3 (F := Ideal) x0 x1 x2 x3 (ix2 p c)
        - max (Ideal.ofBits .f32 0xFF800000#32) ((Finset.univ : Finset (Fin 10)).fold max (Ideal.ofBits .f32 0xFF800000#32) (fun c => val_main_v3 (F := Ideal) x0 x1 x2 x3 (ix2 p c))) := fun c => by
    rw [val_main_call0_v5_apply, val_main_call0_v4_apply, val_main_call0_v3_apply, er c, val_main_call0_v2_apply,
      val_main_call0_v1_apply, val_main_call0_cst_0_apply, rowmax_apply]
    rfl
  have hsum : ∑ k : Fin 10, val_main_call0_v6 (F := Ideal) x0 x1 x2 x3 (idx_main_call0_v7 (ix1 p) k)
      = ∑ c : Fin 10, Ideal.exp (val_main_v3 (F := Ideal) x0 x1 x2 x3 (ix2 p c)
        - max (Ideal.ofBits .f32 0xFF800000#32) ((Finset.univ : Finset (Fin 10)).fold max (Ideal.ofBits .f32 0xFF800000#32) (fun c => val_main_v3 (F := Ideal) x0 x1 x2 x3 (ix2 p c)))) :=
    Finset.sum_congr rfl fun c _ => by rw [ek c, val_main_call0_v6_apply, hshift c]; rfl
  rw [val_main_v4_apply, val_main_call0_v10_apply, val_main_call0_v9_apply, val_main_call0_v8_apply, es,
    val_main_call0_v7_apply, val_main_call0_cst_1_apply, hshift q, hsum]
  unfold lsm
  simp only [Ideal.subf_def, Ideal.hostUnary_log_def, Ideal.ofBits_def, Ideal.ofBits_zero_f32, zero_add]

end Cert.ReferenceIdeal.Row

end
-- ==== Proof.Bridge.lean ====
/-
  The two programs compute one function.

  At every entry `(p, q)` of the 32×10 result, both are the log-softmax at `q` of the ten-entry row
  `c ↦ ∑ k, (∑ d, x (p, d) · U (d, k)) · (∑ d, μ (c, d) · V (d, k))`: the kernel pads that row with `-∞` to 128 lanes
  before the log-softmax and keeps the first ten lanes afterwards, which changes nothing; the reference transposes
  `μ·V` before the third product, where the kernel contracts over the shared axis directly.
-/
import proofs.«413244_j50732153700874_3_alg».proof.Proof.KernelRow
import proofs.«413244_j50732153700874_3_alg».proof.Proof.RefRow
import Idealize.ShloMosaic.Lib.Pipeline.Value

noncomputable section

namespace Cert.Bridge

open Idealize.ShloMosaic Idealize.ShloMosaic.ValueIdx Cert.PadLemmas

/-- The first ten columns of the kernel body's result over the whole arrays are the reference's result. -/
theorem result_eq (x0 : Vec Ideal Cert.KernelIdeal.S32x128 .f32) (x1 : Vec Ideal Cert.KernelIdeal.S10x128 .f32)
    (x2 x3 : Vec Ideal Cert.KernelIdeal.S128x512 .f32) :
    extractStridedSlice Cert.KernelIdeal.S32x10 ![0, 0] (Cert.KernelIdeal.Gen.k0_pay1 (F := Ideal) x0 x1 x2 x3)
        Cert.KernelIdeal.Facts₀.slices_S32x128_S32x10_0_0
      = Cert.ReferenceIdeal.Read.val_main_v4 (F := Ideal) x0 x1 x2 x3 := by
  funext j
  obtain ⟨p, q, rfl⟩ : ∃ (p : Fin 32) (q : Fin 10), j = ix2 p q := ⟨j 0, j 1, eq_ix2 j⟩
  refine (extractStridedSlice_apply ![0, 0] (Cert.KernelIdeal.Gen.k0_pay1 (F := Ideal) x0 x1 x2 x3)
    Cert.KernelIdeal.Facts₀.slices_S32x128_S32x10_0_0 (ix2 p q) (ix2 p (Fin.castLE (by decide : 10 ≤ 128) q)) (fun a => match a with
      | ⟨0, _⟩ => (Nat.zero_add _).symm
      | ⟨1, _⟩ => (Nat.zero_add _).symm)).trans ?_
  rw [Cert.KernelIdeal.Row.pay_apply]
  refine Eq.trans ?_ (Cert.ReferenceIdeal.Row.result_apply x0 x1 x2 x3 p q).symm
  refine congrArg (fun g : Fin 10 → EReal => lsm (Ideal.ofBits .f32 0xFF800000#32) g q) (funext fun c => ?_)
  rw [Cert.KernelIdeal.Row.hK_apply, Cert.ReferenceIdeal.Row.h_apply]

end Cert.Bridge

end
-- ==== Proof.lean ====
/-
  The proof of `Cert.Claim`: the five conjuncts.

  The kernel computes `log_softmax((x·U)·(μ·V)ᵀ)` over rows padded from 10 to 128 lanes with a large negative fill
  and returns the first ten lanes; the reference computes the same log-softmax over the ten-entry rows. With the
  fill named `-∞` (which is what it stands for: a padded lane must neither raise the row's maximum nor add to its sum
  of exponentials), the two are one function on the extended reals: `max` ignores `⊥`, and `exp (⊥ - M) = 0`.

  The three frames are the generated ones (the reference's is its generated run with the result dropped), the one
  ledger entry is the named constant's statement, and the value claim joins the kernel's run read off its frame
  (Proof/KernelRun.lean) with the reference's generated run through `Cert.Bridge.result_eq`.
-/
import proofs.«413244_j50732153700874_3_alg».proof.Defs
import proofs.«413244_j50732153700874_3_alg».proof.Proof.Gen.Kernel
import proofs.«413244_j50732153700874_3_alg».proof.Proof.Gen.Kernel.Skeleton
import proofs.«413244_j50732153700874_3_alg».proof.Proof.Gen.Kernel.Launch
import proofs.«413244_j50732153700874_3_alg».proof.Proof.Gen.Kernel.Points
import proofs.«413244_j50732153700874_3_alg».proof.Proof.Gen.Kernel.Frame
import proofs.«413244_j50732153700874_3_alg».proof.Proof.Gen.KernelIdeal
import proofs.«413244_j50732153700874_3_alg».proof.Proof.Gen.KernelIdeal.Skeleton
import proofs.«413244_j50732153700874_3_alg».proof.Proof.Gen.KernelIdeal.Launch
import proofs.«413244_j50732153700874_3_alg».proof.Proof.Gen.KernelIdeal.Points
import proofs.«413244_j50732153700874_3_alg».proof.Proof.Gen.KernelIdeal.Frame
import proofs.«413244_j50732153700874_3_alg».proof.Proof.Gen.ReferenceIdeal
import proofs.«413244_j50732153700874_3_alg».proof.Proof.Gen.ReferenceIdeal.Run
import proofs.«413244_j50732153700874_3_alg».proof.Proof.Gen.ReferenceIdeal.Read
import proofs.«413244_j50732153700874_3_alg».proof.Proof.Gen.Pre_finite_inputs
import proofs.«413244_j50732153700874_3_alg».proof.Proof.KernelRun
import proofs.«413244_j50732153700874_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the certificate's table gives `"neg_big"` the value `⊥`, and the printed constant is that
    value at the ideal instance. -/
theorem preserves : Cert.preserves_Kernel_KernelIdeal :=
  IdealRules.named_const.statement Cert.KernelIdeal.κ "neg_big" .f32 0xFF333332#32 ⊥ rfl

/-- Both programs end with the result at the log-softmax of the rows of `(x·U)·(μ·V)ᵀ`. -/
theorem algebraic : Cert.algebraic_KernelIdeal_ReferenceIdeal := by
  intro m ρ m' ρ' _ hagree
  refine ⟨_, Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, (hagree c).1, (hagree c).2.1, (hagree c).2.2.1, (hagree c).2.2.2]
  exact (Cert.Bridge.result_eq _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
